-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S128x128_S128x128_1_0 : S128x128.Transposes [1, 0] S128x128
  bitsLt_bf16_f32 : FTy.bits .bf16 < FTy.bits .f32
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelPayload.lean ====
/-
  What one grid point's body computes, read at an index of its [5000, 128] output tile, on the extended reals.

  The body loads a tile X of node features and a tile H of aggregated features (5000 rows each), the two transposed
  weight matrices A and B whole, and the bias as a [1, 128] row; it stores

      (X · A) + (H · B) + bias row,     in the first layer under max (·, 0).

  The changes of float format are the identity on the extended reals and the two matrix products accumulate into
  zero, so entry (r, j) of the tile is  (∑ k, X (r, k) · A (k, j)) + (∑ k, H (r, k) · B (k, j)) + bias (0, j).
-/
import proofs.«112028_j33724083208194_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe

/-- Entry `k` of the tile row that the tile entry `j` lies in. -/
abbrev rowAt (j : S5000x128.Idx) (k : Fin 128) : S5000x128.Idx := fun a => match a with
  | ⟨0, _⟩ => ⟨(j 0).val, (j 0).isLt⟩
  | ⟨1, _⟩ => ⟨k.val, k.isLt⟩

/-- Entry `k` of the transposed weight matrix's column for the tile entry `j`. -/
abbrev colAt (j : S5000x128.Idx) (k : Fin 128) : S128x128.Idx := fun a => match a with
  | ⟨0, _⟩ => ⟨k.val, k.isLt⟩
  | ⟨1, _⟩ => ⟨(j 1).val, (j 1).isLt⟩

/-- The bias row's entry for the tile entry `j`. -/
abbrev biasAt (j : S5000x128.Idx) : S1x128.Idx := fun a => match a with
  | ⟨0, _⟩ => ⟨0, Nat.one_pos⟩
  | ⟨1, _⟩ => ⟨(j 1).val, (j 1).isLt⟩

/-! ## The contraction's operand indices, axis by axis -/

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero accumulator, at a tile entry: the plain sum over the contracted axis. -/
theorem matmul_zero_apply (a : FVec Ideal S5000x128 .bf16) (w : FVec Ideal S128x128 .bf16) (j : S5000x128.Idx) :
    matmul dot_S5000x128_S128x128_S5000x128_1_0_0_1_n_n none a w (constant (F := Ideal) S5000x128 .f32 0x00000000#32) j
      = ∑ k : Fin 128, a (rowAt j k) * w (colAt j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_0 _ _).trans hk
    | ⟨1, _⟩ => exact rhs_1 _ _)
  rw [el, er]

/-- The bias row broadcast down the tile, at an entry. -/
theorem bias_apply (b : FVec Ideal S1x128 .f32) (j : S5000x128.Idx) :
    broadcastTo S5000x128 b broadcasts_S1x128_S5000x128 j = b (biasAt j) :=
  broadcastTo_apply b broadcasts_S1x128_S5000x128 j (biasAt j) (fun a => match a with
    | ⟨0, _⟩ => by show (0 : Nat) = if (1 : Nat) = 1 then 0 else _; rw [if_pos rfl]
    | ⟨1, _⟩ => by show (j 1).val = if (128 : Nat) = 1 then 0 else (j 1).val; rw [if_neg (by decide)])

/-- The tile before the activation. -/
def dense (x h : FVec Ideal S5000x128 .f32) (a b : FVec Ideal S128x128 .bf16) (bias : FVec Ideal S1x128 .f32) : S5000x128.Idx → EReal := fun j =>
  (∑ k : Fin 128, x (rowAt j k) * a (colAt j k)) + (∑ k : Fin 128, h (rowAt j k) * b (colAt j k)) + bias (biasAt j)

/-- First layer's body: the tile under max (·, 0). -/
theorem pay0_apply (x h : FVec Ideal S5000x128 .f32) (a b : FVec Ideal S128x128 .bf16) (bias : FVec Ideal S1x128 .f32) (j : S5000x128.Idx) :
    k0_pay1 (F := Ideal) x h a b bias j = max (dense x h a b bias j) 0 := by
  unfold k0_pay1 dense
  simp only [shapeCast_self]
  rw [ValueIdx.maximumf_apply, ValueIdx.addf_apply, ValueIdx.addf_apply, matmul_zero_apply, matmul_zero_apply, bias_apply]
  simp only [ValueIdx.truncf_apply, ValueIdx.broadcast_apply, Ideal.ofBits_def, Ideal.ofBits_zero_f32]

/-- Second layer's body: the tile itself. -/
theorem pay1_apply (x h : FVec Ideal S5000x128 .f32) (a b : FVec Ideal S128x128 .bf16) (bias : FVec Ideal S1x128 .f32) (j : S5000x128.Idx) :
    k1_pay1 (F := Ideal) x h a b bias j = dense x h a b bias j := by
  unfold k1_pay1 dense
  simp only [shapeCast_self]
  rw [ValueIdx.addf_apply, ValueIdx.addf_apply, matmul_zero_apply, matmul_zero_apply, bias_apply]
  simp only [ValueIdx.truncf_apply]

end Cert.KernelIdeal.Tile

end
-- ==== Proof.KernelRegion.lean ====
/-
  What each kernel region leaves in its output array, as ONE function of the arrays the region finds.

  Both regions run the same body over a grid of 20 points; point t works on rows 5000·t … 5000·t + 4999 of the node
  arrays and on the whole of the two transposed weight matrices and of the bias row. A tile entry (r, j) depends only
  on row r of the two node tiles, so what point t writes back is the restriction to its rows of the whole-array
  function

      layer X H A B bias (n, j) = (∑ k, X (n, k) · A (k, j)) + (∑ k, H (n, k) · B (k, j)) + bias (0, j),

  under max (·, 0) in the first region; the 20 blocks tile the array, so the array ends holding that function.
-/
import proofs.«112028_j33724083208194_1_alg».proof.Proof.Gen.KernelIdeal.Frame
import proofs.«112028_j33724083208194_1_alg».proof.Proof.KernelPayload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat Cfg Window)

/-- Entry `k` of the array row that the array entry `i` lies in. -/
abbrev rowAt (i : S100000x128.Idx) (k : Fin 128) : S100000x128.Idx := fun a => match a with
  | ⟨0, _⟩ => ⟨(i 0).val, (i 0).isLt⟩
  | ⟨1, _⟩ => ⟨k.val, k.isLt⟩

/-- Entry `k` of the transposed weight matrix's column for the array entry `i`. -/
abbrev colAt (i : S100000x128.Idx) (k : Fin 128) : S128x128.Idx := fun a => match a with
  | ⟨0, _⟩ => ⟨k.val, k.isLt⟩
  | ⟨1, _⟩ => ⟨(i 1).val, (i 1).isLt⟩

/-- The bias row's entry for the array entry `i`. -/
abbrev biasAt (i : S100000x128.Idx) : S1x128.Idx := fun a => match a with
  | ⟨0, _⟩ => ⟨0, Nat.one_pos⟩
  | ⟨1, _⟩ => ⟨(i 1).val, (i 1).isLt⟩

/-- One layer before its activation, over the arrays as a region finds them (the weights already transposed, the bias a row). -/
def layer (X H : FVec Ideal S100000x128 .f32) (A B : FVec Ideal S128x128 .bf16) (bias : FVec Ideal S1x128 .f32) : S100000x128.Idx → EReal := fun i =>
  (∑ k : Fin 128, X (rowAt i k) * A (colAt i k)) + (∑ k : Fin 128, H (rowAt i k) * B (colAt i k)) + bias (biasAt i)

/-- A tile entry is the whole-array function at the entry's place in the array, once each operand the tile reads is
    the array's entry at the corresponding place. -/
theorem dense_eq_layer (X H : FVec Ideal S100000x128 .f32) (A B : FVec Ideal S128x128 .bf16) (bias : FVec Ideal S1x128 .f32)
    (x h : FVec Ideal S5000x128 .f32) (a b : FVec Ideal S128x128 .bf16) (bs : FVec Ideal S1x128 .f32) (j : S5000x128.Idx) (i : S100000x128.Idx)
    (hx : ∀ k, x (Tile.rowAt j k) = X (rowAt i k)) (hh : ∀ k, h (Tile.rowAt j k) = H (rowAt i k))
    (ha : ∀ k, a (Tile.colAt j k) = A (colAt i k)) (hb : ∀ k, b (Tile.colAt j k) = B (colAt i k))
    (hbs : bs (Tile.biasAt j) = bias (biasAt i)) :
    Tile.dense x h a b bs j = layer X H A B bias i := by
  unfold Tile.dense layer
  rw [hbs]
  refine congrArg₂ (· + ·) (congrArg₂ (· + ·) (Finset.sum_congr rfl fun k _ => ?_) (Finset.sum_congr rfl fun k _ => ?_)) rfl
  · rw [hx k, ha k]
  · rw [hh k, hb k]

theorem hz : (![0, 0] : Fin 2 → Nat) = fun _ => 0 := funext fun a => by fin_cases a <;> rfl

variable (V : (c : Dev nD) → (b : Ref sig .tc) → Buf (Elt Ideal) ((c : Thread nD τ).loc b))

/-! ## Region 0: the first layer, with its activation -/

/-- The printed index maps, decided over the grid: the node windows move with the output window along the rows, every
    other block index is 0. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block of rows is some point's. -/
theorem idx_onto0 : ∀ q : Fin 20, ∃ t : Fin cfg0.N, win0_5.index t = ![q.val, 0] :=
  (by decide +kernel : ∀ q : Fin 20, ∃ t : Fin grid0.N, win0_5.index t = ![q.val, 0])

/-- The first region's output array as a function of the arrays it finds. -/
def G0 (c : Dev nD) : S100000x128.Idx → EReal := fun i =>
  max (layer (V c main_arg0) (V c main_v28) (V c main_v10) (V c main_v12) (V c main_v29) i) 0

/-- What point `t` writes back is block `t` of `G0`. -/
theorem flushed_eq0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts0 t
  funext j
  show k0_pay1 (F := Ideal) (iblk0 V c 0 t) (iblk0 V c 1 t) (iblk0 V c 2 t) (iblk0 V c 3 t) (iblk0 V c 4 t) j = G0 V c (((cfg0.win 5).blk t).view.emb j)
  refine (Tile.pay0_apply (iblk0 V c 0 t) (iblk0 V c 1 t) (iblk0 V c 2 t) (iblk0 V c 3 t) (iblk0 V c 4 t) j).trans ?_
  unfold G0
  refine congrArg (fun z => max z 0) ?_
  have hj0 : (j 0).val < 5000 := (j 0).isLt
  have hj1 : (j 1).val < 128 := (j 1).isLt
  refine dense_eq_layer (V c main_arg0) (V c main_v28) (V c main_v10) (V c main_v12) (V c main_v29)
    (iblk0 V c 0 t) (iblk0 V c 1 t) (iblk0 V c 2 t) (iblk0 V c 3 t) (iblk0 V c 4 t) j (((cfg0.win 5).blk t).view.emb j) ?_ ?_ ?_ ?_ ?_
  · intro k
    show V c main_arg0 (((cfg0.win 0).blk t).view.emb (Tile.rowAt j k)) = V c main_arg0 (rowAt (((cfg0.win 5).blk t).view.emb j) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_v28 (((cfg0.win 1).blk t).view.emb (Tile.rowAt j k)) = V c main_v28 (rowAt (((cfg0.win 5).blk t).view.emb j) k)
    refine congrArg (V c main_v28) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · intro k
    show V c main_v10 (((cfg0.win 2).blk t).view.emb (Tile.colAt j k)) = V c main_v10 (colAt (((cfg0.win 5).blk t).view.emb j) k)
    refine congrArg (V c main_v10) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    show V c main_v12 (((cfg0.win 3).blk t).view.emb (Tile.colAt j k)) = V c main_v12 (colAt (((cfg0.win 5).blk t).view.emb j) k)
    refine congrArg (V c main_v12) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v29 (((cfg0.win 4).blk t).view.emb (Tile.biasAt j)) = V c main_v29 (biasAt (((cfg0.win 5).blk t).view.emb j))
    refine congrArg (V c main_v29) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An entry of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30).slice (win0_5.rect t)).set ↔ _
  rw [View.set_slice_whole, Rect.mem_set_unit]
  exact Iff.rfl

/-- The blocks tile the array: row n is in the block of point n / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first region's output array after the region. -/
theorem final0 (c : Dev nD) : (dat0 V c).arrAt 5 cfg0.N = G0 V c :=
  (dat0 V c).arrAt_eq_of_cover 5 (G0 V c) (fun t _ => flushed_eq0 V c t) cover0

/-! ## Region 1: the second layer, no activation -/

/-- The printed index maps, decided over the grid: the node windows move with the output window along the rows, every
    other block index is 0. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every block of rows is some point's. -/
theorem idx_onto1 : ∀ q : Fin 20, ∃ t : Fin cfg1.N, win1_5.index t = ![q.val, 0] :=
  (by decide +kernel : ∀ q : Fin 20, ∃ t : Fin grid1.N, win1_5.index t = ![q.val, 0])

/-- The second region's output array as a function of the arrays it finds. -/
def G1 (c : Dev nD) : S100000x128.Idx → EReal :=
  layer (V c main_v30) (V c main_v42) (V c main_v14) (V c main_v16) (V c main_v43)

/-- What point `t` writes back is block `t` of `G1`. -/
theorem flushed_eq1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts1 t
  funext j
  show k1_pay1 (F := Ideal) (iblk1 V c 0 t) (iblk1 V c 1 t) (iblk1 V c 2 t) (iblk1 V c 3 t) (iblk1 V c 4 t) j = G1 V c (((cfg1.win 5).blk t).view.emb j)
  refine (Tile.pay1_apply (iblk1 V c 0 t) (iblk1 V c 1 t) (iblk1 V c 2 t) (iblk1 V c 3 t) (iblk1 V c 4 t) j).trans ?_
  unfold G1
  have hj0 : (j 0).val < 5000 := (j 0).isLt
  have hj1 : (j 1).val < 128 := (j 1).isLt
  refine dense_eq_layer (V c main_v30) (V c main_v42) (V c main_v14) (V c main_v16) (V c main_v43)
    (iblk1 V c 0 t) (iblk1 V c 1 t) (iblk1 V c 2 t) (iblk1 V c 3 t) (iblk1 V c 4 t) j (((cfg1.win 5).blk t).view.emb j) ?_ ?_ ?_ ?_ ?_
  · intro k
    show V c main_v30 (((cfg1.win 0).blk t).view.emb (Tile.rowAt j k)) = V c main_v30 (rowAt (((cfg1.win 5).blk t).view.emb j) k)
    refine congrArg (V c main_v30) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v42 (((cfg1.win 1).blk t).view.emb (Tile.rowAt j k)) = V c main_v42 (rowAt (((cfg1.win 5).blk t).view.emb j) k)
    refine congrArg (V c main_v42) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro k
    show V c main_v14 (((cfg1.win 2).blk t).view.emb (Tile.colAt j k)) = V c main_v14 (colAt (((cfg1.win 5).blk t).view.emb j) k)
    refine congrArg (V c main_v14) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    show V c main_v16 (((cfg1.win 3).blk t).view.emb (Tile.colAt j k)) = V c main_v16 (colAt (((cfg1.win 5).blk t).view.emb j) k)
    refine congrArg (V c main_v16) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show V c main_v43 (((cfg1.win 4).blk t).view.emb (Tile.biasAt j)) = V c main_v43 (biasAt (((cfg1.win 5).blk t).view.emb j))
    refine congrArg (V c main_v43) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An entry of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- The blocks tile the array: row n is in the block of point n / 5000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second region's output array after the region. -/
theorem final1 (c : Dev nD) : (dat1 V c).arrAt 5 cfg1.N = G1 V c :=
  (dat1 V c).arrAt_eq_of_cover 5 (G1 V c) (fun t _ => flushed_eq1 V c t) cover1

end Cert.KernelIdeal.Region

end
-- ==== Proof.Spec.lean ====
/-
  The function both programs compute, index by index, on the extended reals.

  A node array is [100000, 128]; a weight matrix is [128, 128]; a bias is [128]. One graph-convolution layer sends
  node features X and aggregated neighbour features H to

      conv X H Ws Wn b (n, j) = (∑ k, X (n, k) · Ws (j, k)) + (∑ k, H (n, k) · Wn (j, k)) + b j,

  the two products with the TRANSPOSED weight matrices and the bias added along the rows. The network is two such
  layers with max (·, 0) between them, each layer's H the neighbourhood mean `agg` of its own input. How `agg` is
  computed (a gather along the edges, a scatter-add into the destination nodes, a product with the inverse degree) is
  the same text in both programs, so it stays an opaque function here.
-/
import Idealize.ShloMosaic.PureOps.Ideal
import Idealize.ShloMosaic.Lib.ValueIdx

noncomputable section

namespace Cert.Sage

open Idealize.ShloMosaic

abbrev SN : Shape := ⟨2, ![100000, 128]⟩
abbrev SW : Shape := ⟨2, ![128, 128]⟩
abbrev SV : Shape := ⟨1, ![128]⟩

/-- Entry `k` of the row of a node array that the output entry `i` lies in. -/
abbrev featAt (i : SN.Idx) (k : Fin 128) : SN.Idx := fun a => match a with
  | ⟨0, _⟩ => ⟨(i 0).val, (i 0).isLt⟩
  | ⟨1, _⟩ => ⟨k.val, k.isLt⟩

/-- Entry `k` of the weight matrix's row that produces the output entry `i`'s column. -/
abbrev weightAt (i : SN.Idx) (k : Fin 128) : SW.Idx := fun a => match a with
  | ⟨0, _⟩ => ⟨(i 1).val, (i 1).isLt⟩
  | ⟨1, _⟩ => ⟨k.val, k.isLt⟩

/-- The bias entry of the output entry `i`'s column. -/
abbrev biasAt (i : SN.Idx) : SV.Idx := fun a => match a with
  | ⟨0, _⟩ => ⟨(i 1).val, (i 1).isLt⟩

/-- One layer before its activation: self product, neighbour product, bias. -/
def conv (X H : SN.Idx → EReal) (Ws Wn : SW.Idx → EReal) (b : SV.Idx → EReal) : SN.Idx → EReal := fun i =>
  (∑ k : Fin 128, X (featAt i k) * Ws (weightAt i k)) + (∑ k : Fin 128, H (featAt i k) * Wn (weightAt i k)) + b (biasAt i)

/-- The activation between the layers. -/
def relu (Y : SN.Idx → EReal) : SN.Idx → EReal := fun i => max (Y i) 0

/-- The two-layer network over an aggregation `agg`. -/
def net (agg : (SN.Idx → EReal) → SN.Idx → EReal) (X : SN.Idx → EReal) (W1s W1n : SW.Idx → EReal) (b1 : SV.Idx → EReal)
    (W2s W2n : SW.Idx → EReal) (b2 : SV.Idx → EReal) : SN.Idx → EReal :=
  conv (relu (conv X (agg X) W1s W1n b1)) (agg (relu (conv X (agg X) W1s W1n b1))) W2s W2n b2

end Cert.Sage

end
-- ==== Proof.KernelValue.lean ====
/-
  The kernel program's result as the two-layer network of the specification.

  Before the first region the host forms the neighbourhood mean of the input features, transposes the two weight
  matrices (the change of float format is the identity on the extended reals) and reshapes the bias to a row; the
  region leaves max (layer …, 0). Before the second region the host forms the mean of that output by the same
  operations, transposes the second pair of weights and reshapes the second bias; the region leaves the layer itself.
  A transposed matrix read at (k, j) is the matrix at (j, k) and the bias row at (0, j) is the bias at j, so each
  region's function is the specification's layer.
-/
import proofs.«112028_j33724083208194_1_alg».proof.Proof.Gen.KernelIdeal.Frame
import proofs.«112028_j33724083208194_1_alg».proof.Proof.KernelRegion
import proofs.«112028_j33724083208194_1_alg».proof.Proof.Spec
import Idealize.ShloMosaic.Lib.StableHlo.Run
import Idealize.ShloMosaic.Lib.Pipeline.Value

set_option maxRecDepth 16384

noncomputable section

namespace Cert.KernelIdeal.Whole

open Cert.KernelIdeal Cert.KernelIdeal.Gen Cert.Sage
open Idealize.ShloMosaic Idealize.ShloMosaic.TcCoe Idealize.SL.Sem Idealize.ShloMosaic.StableHlo

/-- The inverse in-degree of every node, as a column: one over the larger of the count of edges into the node and one. -/
def degInv (d : IVec S1600000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 d)
          (broadcastInDim S1600000 ![] bcast_S_S1600000 (constant (F := Ideal) S_ .f32 0x3F800000#32)))
        (broadcastInDim S100000 ![] bcast_S_S100000 (constant (F := Ideal) S_ .f32 0x3F800000#32))))

/-- The neighbourhood mean of a node array along the edges `s → d` (a negative source index counted from the end):
    gather the source rows, add them into the destination rows, scale each row by the inverse in-degree. -/
def agg (s d : IVec S1600000 32) (x : FVec Ideal S100000x128 .f32) : FVec Ideal S100000x128 .f32 :=
  mulf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1 (degInv d))

/-- A weight matrix as a region finds it: transposed. -/
def wT (w : FVec Ideal S128x128 .f32) : FVec Ideal S128x128 .bf16 :=
  truncf (F := Ideal) .bf16 (transpose S128x128 [1, 0] w transposes_S128x128_S128x128_1_0) bitsLt_bf16_f32

/-- A bias as a region finds it: a [1, 128] row. -/
def bRow (b : FVec Ideal S128 .f32) : FVec Ideal S1x128 .f32 :=
  shapeCast S1x128 b shapeCasts_S128_S1x128

variable (m : (ℓ : Loc nD τ sig) → Buf (Elt Ideal) ℓ) (ρ : Dev nD → PrngReg)

/-! ## The buffers after the first host stretch -/

theorem V1_arg0 (c : Dev nD) : (V1 (F := Ideal) m ρ c main_arg0 : S100000x128.Idx → EReal) = (m ((c : Thread nD τ).loc main_arg0)) := by
  show StableHlo.after hostOps0 (W0 m ρ c) (Proc.devRef .tc main_arg0) = _
  after_results_simp <;> rfl
theorem V1_arg1 (c : Dev nD) : (V1 (F := Ideal) m ρ c main_arg1 : IVec S1600000 32) = (m ((c : Thread nD τ).loc main_arg1)) := by
  show StableHlo.after hostOps0 (W0 m ρ c) (Proc.devRef .tc main_arg1) = _
  after_results_simp <;> rfl
theorem V1_arg2 (c : Dev nD) : (V1 (F := Ideal) m ρ c main_arg2 : IVec S1600000 32) = (m ((c : Thread nD τ).loc main_arg2)) := by
  show StableHlo.after hostOps0 (W0 m ρ c) (Proc.devRef .tc main_arg2) = _
  after_results_simp <;> rfl
theorem V1_arg8 (c : Dev nD) : (V1 (F := Ideal) m ρ c main_arg8 : S128.Idx → EReal) = (m ((c : Thread nD τ).loc main_arg8)) := by
  show StableHlo.after hostOps0 (W0 m ρ c) (Proc.devRef .tc main_arg8) = _
  after_results_simp <;> rfl
theorem V1_v8 (c : Dev nD) : (V1 (F := Ideal) m ρ c main_v8 : S100000x1.Idx → EReal) = degInv (m ((c : Thread nD τ).loc main_arg2)) := by
  show StableHlo.after hostOps0 (W0 m ρ c) (Proc.devRef .tc main_v8) = _
  after_results_simp <;> rfl
theorem V1_v28 (c : Dev nD) : (V1 (F := Ideal) m ρ c main_v28 : S100000x128.Idx → EReal) = agg (m ((c : Thread nD τ).loc main_arg1)) (m ((c : Thread nD τ).loc main_arg2)) (m ((c : Thread nD τ).loc main_arg0)) := by
  show StableHlo.after hostOps0 (W0 m ρ c) (Proc.devRef .tc main_v28) = _
  after_results_simp <;> rfl
theorem V1_v10 (c : Dev nD) : (V1 (F := Ideal) m ρ c main_v10 : S128x128.Idx → EReal) = wT (m ((c : Thread nD τ).loc main_arg3)) := by
  show StableHlo.after hostOps0 (W0 m ρ c) (Proc.devRef .tc main_v10) = _
  after_results_simp <;> rfl
theorem V1_v12 (c : Dev nD) : (V1 (F := Ideal) m ρ c main_v12 : S128x128.Idx → EReal) = wT (m ((c : Thread nD τ).loc main_arg4)) := by
  show StableHlo.after hostOps0 (W0 m ρ c) (Proc.devRef .tc main_v12) = _
  after_results_simp <;> rfl
theorem V1_v14 (c : Dev nD) : (V1 (F := Ideal) m ρ c main_v14 : S128x128.Idx → EReal) = wT (m ((c : Thread nD τ).loc main_arg6)) := by
  show StableHlo.after hostOps0 (W0 m ρ c) (Proc.devRef .tc main_v14) = _
  after_results_simp <;> rfl
theorem V1_v16 (c : Dev nD) : (V1 (F := Ideal) m ρ c main_v16 : S128x128.Idx → EReal) = wT (m ((c : Thread nD τ).loc main_arg7)) := by
  show StableHlo.after hostOps0 (W0 m ρ c) (Proc.devRef .tc main_v16) = _
  after_results_simp <;> rfl
theorem V1_v29 (c : Dev nD) : (V1 (F := Ideal) m ρ c main_v29 : S1x128.Idx → EReal) = bRow (m ((c : Thread nD τ).loc main_arg5)) := by
  show StableHlo.after hostOps0 (W0 m ρ c) (Proc.devRef .tc main_v29) = _
  after_results_simp <;> rfl

/-! ## The first region's output -/

/-- The first layer's output over the arguments, in the region's own terms. -/
def h1 (c : Dev nD) : S100000x128.Idx → EReal := fun i =>
  max (Region.layer (m ((c : Thread nD τ).loc main_arg0)) (agg (m ((c : Thread nD τ).loc main_arg1)) (m ((c : Thread nD τ).loc main_arg2)) (m ((c : Thread nD τ).loc main_arg0))) (wT (m ((c : Thread nD τ).loc main_arg3))) (wT (m ((c : Thread nD τ).loc main_arg4))) (bRow (m ((c : Thread nD τ).loc main_arg5))) i) 0

theorem G0_eq (c : Dev nD) : Region.G0 (V1 m ρ) c = h1 m c := by
  unfold Region.G0 h1
  rw [V1_arg0, V1_v28, V1_v10, V1_v12, V1_v29]

/-! ## The buffers at the first region's exit and after the second host stretch -/

theorem W2_v30 (c : Dev nD) : (W2 m ρ c (Proc.devRef .tc main_v30) : S100000x128.Idx → EReal) = h1 m c :=
  (W2_arr m ρ c 5).trans ((Region.final0 (V1 m ρ) c).trans (G0_eq m ρ c))
theorem W2_arg1 (c : Dev nD) : (W2 m ρ c (Proc.devRef .tc main_arg1) : IVec S1600000 32) = (m ((c : Thread nD τ).loc main_arg1)) :=
  (W2_of_ne m ρ c main_arg1 (by decide)).trans (V1_arg1 m ρ c)
theorem W2_arg2 (c : Dev nD) : (W2 m ρ c (Proc.devRef .tc main_arg2) : IVec S1600000 32) = (m ((c : Thread nD τ).loc main_arg2)) :=
  (W2_of_ne m ρ c main_arg2 (by decide)).trans (V1_arg2 m ρ c)
theorem W2_arg8 (c : Dev nD) : (W2 m ρ c (Proc.devRef .tc main_arg8) : S128.Idx → EReal) = (m ((c : Thread nD τ).loc main_arg8)) :=
  (W2_of_ne m ρ c main_arg8 (by decide)).trans (V1_arg8 m ρ c)
theorem W2_v8 (c : Dev nD) : (W2 m ρ c (Proc.devRef .tc main_v8) : S100000x1.Idx → EReal) = degInv (m ((c : Thread nD τ).loc main_arg2)) :=
  (W2_of_ne m ρ c main_v8 (by decide)).trans (V1_v8 m ρ c)
theorem W2_v14 (c : Dev nD) : (W2 m ρ c (Proc.devRef .tc main_v14) : S128x128.Idx → EReal) = wT (m ((c : Thread nD τ).loc main_arg6)) :=
  (W2_of_ne m ρ c main_v14 (by decide)).trans (V1_v14 m ρ c)
theorem W2_v16 (c : Dev nD) : (W2 m ρ c (Proc.devRef .tc main_v16) : S128x128.Idx → EReal) = wT (m ((c : Thread nD τ).loc main_arg7)) :=
  (W2_of_ne m ρ c main_v16 (by decide)).trans (V1_v16 m ρ c)

theorem V3_v30 (c : Dev nD) : (V3 (F := Ideal) m ρ c main_v30 : S100000x128.Idx → EReal) = h1 m c := by
  show StableHlo.after hostOps1 (W2 m ρ c) (Proc.devRef .tc main_v30) = _
  after_results_simp
  exact W2_v30 m ρ c
theorem V3_v14 (c : Dev nD) : (V3 (F := Ideal) m ρ c main_v14 : S128x128.Idx → EReal) = wT (m ((c : Thread nD τ).loc main_arg6)) := by
  show StableHlo.after hostOps1 (W2 m ρ c) (Proc.devRef .tc main_v14) = _
  after_results_simp
  exact W2_v14 m ρ c
theorem V3_v16 (c : Dev nD) : (V3 (F := Ideal) m ρ c main_v16 : S128x128.Idx → EReal) = wT (m ((c : Thread nD τ).loc main_arg7)) := by
  show StableHlo.after hostOps1 (W2 m ρ c) (Proc.devRef .tc main_v16) = _
  after_results_simp
  exact W2_v16 m ρ c
theorem V3_v43 (c : Dev nD) : (V3 (F := Ideal) m ρ c main_v43 : S1x128.Idx → EReal) = bRow (m ((c : Thread nD τ).loc main_arg8)) := by
  show StableHlo.after hostOps1 (W2 m ρ c) (Proc.devRef .tc main_v43) = _
  after_results_simp
  rw [W2_arg8]
  rfl
theorem V3_v42 (c : Dev nD) : (V3 (F := Ideal) m ρ c main_v42 : S100000x128.Idx → EReal) = agg (m ((c : Thread nD τ).loc main_arg1)) (m ((c : Thread nD τ).loc main_arg2)) (h1 m c) := by
  show StableHlo.after hostOps1 (W2 m ρ c) (Proc.devRef .tc main_v42) = _
  after_results_simp
  rw [W2_arg1, W2_arg2, W2_v30, W2_v8]
  rfl

/-! ## The result buffer -/

/-- The result array after the run, in the regions' own terms. -/
theorem result_layer (c : Dev nD) : (W4 m ρ c (Proc.devRef .tc main_v44) : S100000x128.Idx → EReal)
    = Region.layer (h1 m c) (agg (m ((c : Thread nD τ).loc main_arg1)) (m ((c : Thread nD τ).loc main_arg2)) (h1 m c)) (wT (m ((c : Thread nD τ).loc main_arg6))) (wT (m ((c : Thread nD τ).loc main_arg7))) (bRow (m ((c : Thread nD τ).loc main_arg8))) := by
  refine (W4_arr m ρ c 5).trans ((Region.final1 (V3 m ρ) c).trans ?_)
  unfold Region.G1
  rw [V3_v30, V3_v42, V3_v14, V3_v16, V3_v43]

/-! ## A region's layer is the specification's -/

theorem layer_eq_conv (X H : FVec Ideal S100000x128 .f32) (ws wn : FVec Ideal S128x128 .f32) (b : FVec Ideal S128 .f32) :
    Region.layer X H (wT ws) (wT wn) (bRow b) = conv X H ws wn b := by
  funext i
  have hw : ∀ (w : FVec Ideal S128x128 .f32) (k : Fin 128), wT w (Region.colAt i k) = w (weightAt i k) := fun w k =>
    transpose_apply [1, 0] w transposes_S128x128_S128x128_1_0 (Region.colAt i k) (weightAt i k) (fun b => match b with
      | ⟨0, _⟩ => rfl
      | ⟨1, _⟩ => rfl)
  have hb : bRow b (Region.biasAt i) = b (biasAt i) :=
    (shapeCast_addUnit_apply ![128] b shapeCasts_S128_S1x128 (Region.biasAt i)).trans (congrArg b (funext fun a => Fin.ext (by
      match a with
      | ⟨0, _⟩ => rfl)))
  have hr : ∀ k : Fin 128, Region.rowAt i k = featAt i k := fun k => funext fun a => Fin.ext (by
    match a with
    | ⟨0, _⟩ => rfl
    | ⟨1, _⟩ => rfl)
  unfold Region.layer conv
  rw [hb]
  refine congrArg₂ (· + ·) (congrArg₂ (· + ·) (Finset.sum_congr rfl fun k _ => ?_) (Finset.sum_congr rfl fun k _ => ?_)) rfl
  · rw [hw ws k, hr k]
  · rw [hw wn k, hr k]

/-- The result array after the run is the specification's network over this program's own neighbourhood mean. -/
theorem result_net (c : Dev nD) : (W4 m ρ c (Proc.devRef .tc main_v44) : S100000x128.Idx → EReal)
    = net (agg (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e1 : h1 m c = relu (conv (m ((c : Thread nD τ).loc main_arg0)) (agg (m ((c : Thread nD τ).loc main_arg1)) (m ((c : Thread nD τ).loc main_arg2)) (m ((c : Thread nD τ).loc main_arg0))) (m ((c : Thread nD τ).loc main_arg3)) (m ((c : Thread nD τ).loc main_arg4)) (m ((c : Thread nD τ).loc main_arg5))) := by
    unfold h1 relu
    rw [layer_eq_conv]
  rw [result_layer, layer_eq_conv, e1]
  rfl

end Cert.KernelIdeal.Whole

end
-- ==== Proof.RefValue.lean ====
/-
  The reference's result is the two-layer network of the specification.

  Read one operation at a time, the reference forms each layer as  X · Wsᵀ + H · Wnᵀ + bias  with H the neighbourhood
  mean of the layer's input: a product with a transposed matrix read at (n, j) is ∑ k, X (n, k) · W (j, k), the bias is
  broadcast along the rows, and the activation between the layers is the maximum with a zero splat. The mean itself is
  never opened: the second layer's is the same chain of operations as the first's, applied to the first layer's output.
-/
import proofs.«112028_j33724083208194_1_alg».proof.Proof.Gen.ReferenceIdeal.Read
import proofs.«112028_j33724083208194_1_alg».proof.Proof.Spec

set_option maxRecDepth 16384

noncomputable section

namespace Cert.ReferenceIdeal.RefValue

open Cert.ReferenceIdeal Cert.ReferenceIdeal.Read Cert.Sage Idealize.ShloMosaic Idealize.ShloMosaic.TcCoe

/-- The neighbourhood mean of a node array along the edges `s → d`: gather the source rows, add them into the
    destination rows, scale each row by the inverse of its in-degree (at least one). -/
def agg (s d : IVec S1600000 32) (y : FVec Ideal S100000x128 .f32) : FVec Ideal S100000x128 .f32 :=
  val_main_v20 (F := Ideal) y s d

/-- A product with a transposed weight matrix, at an entry. -/
theorem dotT_apply (y : FVec Ideal S100000x128 .f32) (w : FVec Ideal S128x128 .f32) (i : S100000x128.Idx) :
    val_main_v22 (F := Ideal) y w i = ∑ k : Fin 128, y (featAt i k) * w (weightAt i k) := by
  rw [val_main_v22_apply]
  refine Finset.sum_congr rfl fun k _ => ?_
  rw [val_main_v21_apply]
  have e1 : lidx_main_v22 i k = featAt i k := funext fun a => Fin.ext (by
    match a with
    | ⟨0, _⟩ => rfl
    | ⟨1, _⟩ => rfl)
  have e2 : idx_main_v21 (ridx_main_v22 i k) = weightAt i k := funext fun a => Fin.ext (by
    match a with
    | ⟨0, _⟩ => rfl
    | ⟨1, _⟩ => rfl)
  rw [e1, e2]

/-- One layer as the reference's operations form it is the specification's layer. -/
theorem conv_eq (x h : FVec Ideal S100000x128 .f32) (ws wn : FVec Ideal S128x128 .f32) (b : FVec Ideal S128 .f32) :
    (addf (addf (val_main_v22 (F := Ideal) x ws) (val_main_v22 (F := Ideal) h wn)) (val_main_v27 (F := Ideal) b) : FVec Ideal S100000x128 .f32) = conv x h ws wn b := by
  funext i
  rw [ValueIdx.addf_apply, ValueIdx.addf_apply, dotT_apply, dotT_apply, val_main_v27_apply, val_main_v26_apply]
  have e : idx_main_v26 (idx_main_v27 i) = biasAt i := funext fun a => Fin.ext (by
    match a with
    | ⟨0, _⟩ => rfl)
  rw [e]
  rfl

/-- The first layer with its activation. -/
theorem layer1 (x0 : FVec Ideal S100000x128 .f32) (x1 x2 : IVec S1600000 32) (x3 x4 : FVec Ideal S128x128 .f32) (x5 : FVec Ideal S128 .f32) :
    val_main_v29 (F := Ideal) x0 x1 x2 x3 x4 x5 = relu (conv x0 (agg x1 x2 x0) x3 x4 x5) := by
  have h : val_main_v28 (F := Ideal) x0 x1 x2 x3 x4 x5 = conv x0 (agg x1 x2 x0) x3 x4 x5 := conv_eq x0 (agg x1 x2 x0) x3 x4 x5
  funext i
  rw [val_main_v29_apply, h, val_main_call0_v0_apply, val_main_call0_cst_apply]
  show max _ (Ideal.ofBits .f32 0x00000000#32) = max _ 0
  rw [Ideal.ofBits_zero_f32]

/-- The reference's result. -/
theorem result_eq (x0 : FVec Ideal S100000x128 .f32) (x1 x2 : IVec S1600000 32) (x3 x4 : FVec Ideal S128x128 .f32) (x5 : FVec Ideal S128 .f32)
    (x6 x7 : FVec Ideal S128x128 .f32) (x8 : FVec Ideal S128 .f32) :
    val_main_v50 (F := Ideal) x0 x1 x2 x3 x4 x5 x6 x7 x8 = net (agg x1 x2) x0 x3 x4 x5 x6 x7 x8 := by
  have h : val_main_v50 (F := Ideal) x0 x1 x2 x3 x4 x5 x6 x7 x8
      = conv (val_main_v29 (F := Ideal) x0 x1 x2 x3 x4 x5) (agg x1 x2 (val_main_v29 (F := Ideal) x0 x1 x2 x3 x4 x5)) x6 x7 x8 :=
    conv_eq (val_main_v29 (F := Ideal) x0 x1 x2 x3 x4 x5) (agg x1 x2 (val_main_v29 (F := Ideal) x0 x1 x2 x3 x4 x5)) x6 x7 x8
  rw [h, layer1]
  rfl

end Cert.ReferenceIdeal.RefValue

end
-- ==== Proof.lean ====
/-
  A two-layer graph convolution with mean aggregation: kernel program against reference, equal on the extended reals.

  Both programs compute, for node features X [100000, 128], edges s → d, and per layer a self weight Ws, a neighbour
  weight Wn and a bias b,

      layer X = X · Wsᵀ + mean (X) · Wnᵀ + b,        result = layer₂ (max (layer₁ X, 0)),

  where mean (X) gathers the source rows of X along the edges, adds them into the destination rows and scales each row
  by the inverse of its in-degree (at least one). The mean is the same chain of host operations in both programs and is
  never opened. The kernel program computes each layer's three terms in a kernel region, tile by tile of 5000 rows, from
  weights the host has transposed and a bias the host has reshaped to a row; the reference computes them as two host
  products with transposed matrices and a broadcast sum. On the extended reals a change of float format is the
  identity, a product accumulated into zero is the plain sum over the contracted axis, and the two sides are the same
  sums of the same products: no law beyond  0 + a = a  is used, and the inputs' finiteness is not needed.

  The three frames are the generated ones (the reference's is its generated run with the result dropped); the idealization
  rewrote nothing, so there is nothing to preserve.
-/
import proofs.«112028_j33724083208194_1_alg».proof.Defs
import proofs.«112028_j33724083208194_1_alg».proof.Proof.Gen.Kernel
import proofs.«112028_j33724083208194_1_alg».proof.Proof.Gen.Kernel.Frame
import proofs.«112028_j33724083208194_1_alg».proof.Proof.Gen.KernelIdeal
import proofs.«112028_j33724083208194_1_alg».proof.Proof.Gen.KernelIdeal.Frame
import proofs.«112028_j33724083208194_1_alg».proof.Proof.Gen.ReferenceIdeal
import proofs.«112028_j33724083208194_1_alg».proof.Proof.Gen.ReferenceIdeal.Run
import proofs.«112028_j33724083208194_1_alg».proof.Proof.Gen.ReferenceIdeal.Read
import proofs.«112028_j33724083208194_1_alg».proof.Proof.Gen.Pre_finite_inputs
import proofs.«112028_j33724083208194_1_alg».proof.Proof.KernelRun
import proofs.«112028_j33724083208194_1_alg».proof.Proof.KernelValue
import proofs.«112028_j33724083208194_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The two programs' neighbourhood means are one function: the same operations over the same dimensions. -/
theorem agg_eq (s d : IVec Cert.ReferenceIdeal.S1600000 32) :
    Cert.ReferenceIdeal.RefValue.agg s d = Cert.KernelIdeal.Whole.agg s d :=
  funext fun _ => rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the kernel program's arguments. -/
theorem algebraic : Cert.algebraic_KernelIdeal_ReferenceIdeal := by
  intro m ρ m' ρ' _ hagree
  refine ⟨fun c => Cert.Sage.net (Cert.KernelIdeal.Whole.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result_net m ρ c), (h c).2⟩)
      (Cert.KernelIdeal.Result.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v50_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
